-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S5000x64 : Shape := ⟨2, ![5000, 64]⟩
abbrev S1x64 : Shape := ⟨2, ![1, 64]⟩

abbrev nBuf : Space → Nat
  | .hbm => 35
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S100000x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S64, .f32⟩
  | .local _ .vmem, ⟨14, _⟩ => ⟨S5000x64, .f32⟩
  | .local _ .vmem, ⟨15, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v10) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 55
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S_, .f32⟩
  | .hbm, ⟨21, _⟩ => ⟨S100000x64, .f32⟩
  | .hbm, ⟨22, _⟩ => ⟨S100000x64, .f32⟩
  | .hbm, ⟨23, _⟩ => ⟨S100000x64, .f32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call1_cst : Ref sig .tc := ⟨.hbm, 52, rfl⟩
abbrev main_call1_v0 : Ref sig .tc := ⟨.hbm, 53, rfl⟩
abbrev main_v35 : Ref sig .tc := ⟨.hbm, 54, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Dense.lean ====
/-
  The dense half of one graph-isomorphism layer, as one function of whole arrays over the extended reals.

  A layer takes node features `h` (100000 rows of 64), the neighbourhood sums `a` of the same shape, a 64 × 64 weight
  matrix `W` and a bias row `b`, and returns, at row `r` and column `c`,

      max ( Σ_k (h[r,k] + a[r,k]) · W[k,c] + b[c] , 0 ).

  Entry (r, c) depends on row `r` of `h` and `a` only, on column `c` of `W` and on `b[c]`: a program that
  computes the layer 5000 rows at a time and one that computes it on the whole array agree row by row.  No law beyond
  reading each operation at an index is used: the sum over `k` is the same finite sum on both sides, so nothing here
  needs the inputs to be finite.
-/
import Idealize.ShloMosaic.PureOps.Ideal
import Idealize.ShloMosaic.Lib.ValueIdx

noncomputable section

namespace Cert.Gin

open Idealize.ShloMosaic Idealize.ShloMosaic.ValueIdx
open scoped BigOperators

/-- Node features: 100000 nodes, 64 channels. -/
abbrev Nodes : Shape := ⟨2, ![100000, 64]⟩
/-- A layer's weight matrix. -/
abbrev Weights : Shape := ⟨2, ![64, 64]⟩
/-- A layer's bias row. -/
abbrev Bias : Shape := ⟨1, ![64]⟩

/-- The layer's entry at row `r`, column `c`. -/
def denseAt (h a : Nodes.Idx → EReal) (W : Weights.Idx → EReal) (b : Bias.Idx → EReal) (r : Fin 100000) (c : Fin 64) : EReal :=
  max ((∑ k : Fin 64, (h (ix2 r k) + a (ix2 r k)) * W (ix2 k c)) + b (ix1 c)) 0

/-- The layer as a whole array. -/
def dense (h a : Nodes.Idx → EReal) (W : Weights.Idx → EReal) (b : Bias.Idx → EReal) : Nodes.Idx → EReal :=
  fun i => denseAt h a W b (i 0) (i 1)

/-- Reading the layer at an index given by its coordinates. -/
theorem dense_ix2 (h a : Nodes.Idx → EReal) (W : Weights.Idx → EReal) (b : Bias.Idx → EReal) (r : Fin 100000) (c : Fin 64) :
    dense h a W b (ix2 r c) = denseAt h a W b r c := rfl

end Cert.Gin

end
-- ==== Proof.BlockPayload.lean ====
/-
  What one grid point of either kernel region stores, read at an entry of its 5000 × 64 block.

  The body adds the block of features `x0` to the block of neighbourhood sums `x1`, multiplies by the weight matrix
  `x2` (both operands narrowed to bf16 first, which over the extended reals changes nothing; the accumulator starts at
  zero, so the product is the plain sum over the contracted axis), adds the bias row `x3` broadcast over the rows, and
  takes the maximum with zero.  At row `p`, column `q` of the block this is

      max ( Σ_k (x0[p,k] + x1[p,k]) · x2[k,q] + x3[q] , 0 ).
-/
import proofs.«100566_j4587025072633_1_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx
open scoped BigOperators

/-! ## The matrix product's operand indices -/

theorem lhs_dot_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_dot_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_dot_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_dot_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product into a zero accumulator, at row `p` and column `q`: the sum over the contracted axis. -/
theorem matmul_at (y : FVec Ideal S5000x64 .bf16) (w : FVec Ideal S64x64 .bf16) (p : Fin 5000) (q : Fin 64) :
    matmul dot_S5000x64_S64x64_S5000x64_1_0_0_1_n_n none y w (constant (F := Ideal) S5000x64 .f32 0x00000000#32) (ix2 p q)
      = ∑ k : Fin 64, y (ix2 p k) * w (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]

/-- The bias row, lifted to one row of a matrix and broadcast over 5000 rows, reads the bias at the column. -/
theorem bias_at (x3 : Vec Ideal S64 .f32) (p : Fin 5000) (q : Fin 64) :
    broadcastTo S5000x64 (shapeCast S1x64 x3 shapeCasts_S64_S1x64) broadcasts_S1x64_S5000x64 (ix2 p q) = x3 (ix1 q) := by
  rw [broadcastTo_1b_ab_apply, shapeCast_a_1a_apply]

/-- Region 0's stored value at an entry of the block. -/
theorem pay0_at (x0 x1 : Vec Ideal S5000x64 .f32) (x2 : Vec Ideal S64x64 .f32) (x3 : Vec Ideal S64 .f32) (p : Fin 5000) (q : Fin 64) :
    k0_pay1 (F := Ideal) x0 x1 x2 x3 (ix2 p q)
      = max ((∑ k : Fin 64, (x0 (ix2 p k) + x1 (ix2 p k)) * x2 (ix2 k q)) + x3 (ix1 q)) 0 := by
  unfold k0_pay1
  rw [maximumf_apply, addf_apply, matmul_at, bias_at, broadcast_apply,
    show FloatOps.ofBits (F := Ideal) .f32 0x00000000#32 = 0 from Ideal.ofBits_zero_f32]
  simp only [truncf_apply, addf_apply, shapeCast_self]

/-- Region 1's stored value at an entry of the block: the same function (its text casts both loaded blocks to their own
    shape first). -/
theorem pay1_at (x0 x1 : Vec Ideal S5000x64 .f32) (x2 : Vec Ideal S64x64 .f32) (x3 : Vec Ideal S64 .f32) (p : Fin 5000) (q : Fin 64) :
    k1_pay1 (F := Ideal) x0 x1 x2 x3 (ix2 p q)
      = max ((∑ k : Fin 64, (x0 (ix2 p k) + x1 (ix2 p k)) * x2 (ix2 k q)) + x3 (ix1 q)) 0 := by
  unfold k1_pay1
  rw [maximumf_apply, addf_apply, matmul_at, bias_at, broadcast_apply,
    show FloatOps.ofBits (F := Ideal) .f32 0x00000000#32 = 0 from Ideal.ofBits_zero_f32]
  simp only [truncf_apply, addf_apply, shapeCast_self]

end Cert.KernelIdeal.Block

end
-- ==== Proof.RegionArray.lean ====
/-
  What each kernel region leaves in its output array, as one function of the arrays it finds on entry.

  The grid has 20 points; point `t` reads rows 5000·t … 5000·t + 4999 of the feature array and of the neighbourhood
  sums, the whole weight matrix and the whole bias row, and writes the same rows of the output.  Entry (r, c) of a
  layer depends only on row `r` of the two row-blocked inputs, so block `t` of the output is block `t` of the
  whole-array layer `Cert.Gin.dense`; the 20 blocks tile the 100000 rows (row `r` is in block `r / 5000`), so the
  output array ends holding the layer of the entry arrays.
-/
import proofs.«100566_j4587025072633_1_alg».proof.Proof.Gen.KernelIdeal.Frame
import proofs.«100566_j4587025072633_1_alg».proof.Proof.Dense
import proofs.«100566_j4587025072633_1_alg».proof.Proof.BlockPayload
import Idealize.ShloMosaic.Lib.Pipeline.Value
import Idealize.ShloMosaic.Lib.ValueIdx

set_option maxRecDepth 16384

noncomputable section

namespace Cert.KernelIdeal.Region

open Cert.KernelIdeal Cert.KernelIdeal.Gen Cert.KernelIdeal.Block
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-! ## Region 0 -/

/-- The arrays region 0 finds, at their literal types. -/
abbrev feat0 (c : Dev nD) : Vec Ideal S100000x64 .f32 := V c main_arg0
abbrev nbr0 (c : Dev nD) : Vec Ideal S100000x64 .f32 := V c main_v9
abbrev wts0 (c : Dev nD) : Vec Ideal S64x64 .f32 := V c main_arg3
abbrev bias0 (c : Dev nD) : Vec Ideal S64 .f32 := V c main_arg4

/-- The four input blocks at a point, at their literal types. -/
abbrev fblk0 (c : Dev nD) (t : Fin cfg0.N) : Vec Ideal S5000x64 .f32 := iblk0 V c 0 t
abbrev nblk0 (c : Dev nD) (t : Fin cfg0.N) : Vec Ideal S5000x64 .f32 := iblk0 V c 1 t
abbrev wblk0 (c : Dev nD) (t : Fin cfg0.N) : Vec Ideal S64x64 .f32 := iblk0 V c 2 t
abbrev bblk0 (c : Dev nD) (t : Fin cfg0.N) : Vec Ideal S64 .f32 := iblk0 V c 3 t

/-- The printed index maps over the grid: the row-blocked windows sit at block row `t`, the weights and the bias at
    their one block. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- The row of the array that row `p` of block `t` is. -/
abbrev row (t : Nat) (ht : t < 20) (p : Fin 5000) : Fin 100000 := ⟨t * 5000 + p.val, by have := p.isLt; omega⟩

theorem fblk0_at (c : Dev nD) (t : Fin cfg0.N) (ht : t.val < 20) (p : Fin 5000) (k : Fin 64) :
    fblk0 V c t (ix2 p k) = feat0 V c (ix2 (row t.val ht p) k) := by
  obtain ⟨e0, e1, -⟩ := idx_facts0 t
  show V c main_arg0 (((cfg0.win 0).blk t).view.emb (ix2 p k)) = V c main_arg0 (ix2 (row t.val ht p) k)
  congr 1
  funext a; apply Fin.ext
  match a with
  | ⟨0, _⟩ => show win0_0.index t (0 : Fin 2) * 5000 + 1 * p.val = t.val * 5000 + p.val; rw [e0]; omega
  | ⟨1, _⟩ => show win0_0.index t (1 : Fin 2) * 64 + 1 * k.val = k.val; rw [e1]; omega

theorem nblk0_at (c : Dev nD) (t : Fin cfg0.N) (ht : t.val < 20) (p : Fin 5000) (k : Fin 64) :
    nblk0 V c t (ix2 p k) = nbr0 V c (ix2 (row t.val ht p) k) := by
  obtain ⟨-, -, e0, e1, -⟩ := idx_facts0 t
  show V c main_v9 (((cfg0.win 1).blk t).view.emb (ix2 p k)) = V c main_v9 (ix2 (row t.val ht p) k)
  congr 1
  funext a; apply Fin.ext
  match a with
  | ⟨0, _⟩ => show win0_1.index t (0 : Fin 2) * 5000 + 1 * p.val = t.val * 5000 + p.val; rw [e0]; omega
  | ⟨1, _⟩ => show win0_1.index t (1 : Fin 2) * 64 + 1 * k.val = k.val; rw [e1]; omega

theorem wblk0_at (c : Dev nD) (t : Fin cfg0.N) (k q : Fin 64) :
    wblk0 V c t (ix2 k q) = wts0 V c (ix2 k q) := by
  obtain ⟨-, -, -, -, e0, e1, -⟩ := idx_facts0 t
  show V c main_arg3 (((cfg0.win 2).blk t).view.emb (ix2 k q)) = V c main_arg3 (ix2 k q)
  congr 1
  funext a; apply Fin.ext
  match a with
  | ⟨0, _⟩ => show win0_2.index t (0 : Fin 2) * 64 + 1 * k.val = k.val; rw [e0]; omega
  | ⟨1, _⟩ => show win0_2.index t (1 : Fin 2) * 64 + 1 * q.val = q.val; rw [e1]; omega

theorem bblk0_at (c : Dev nD) (t : Fin cfg0.N) (q : Fin 64) :
    bblk0 V c t (ix1 q) = bias0 V c (ix1 q) := by
  obtain ⟨-, -, -, -, -, -, e0, -⟩ := idx_facts0 t
  show V c main_arg4 (((cfg0.win 3).blk t).view.emb (ix1 q)) = V c main_arg4 (ix1 q)
  congr 1
  funext a; apply Fin.ext
  match a with
  | ⟨0, _⟩ => show win0_3.index t (0 : Fin 1) * 64 + 1 * q.val = q.val; rw [e0]; omega

/-- What point `t` of region 0 writes back is block `t` of the layer of the entry arrays. -/
theorem flushed0_eq (c : Dev nD) (t : Fin cfg0.N) :
    (dat0 V c).flushed 4 t = ((cfg0.win 4).blk t).view.read (Elt Ideal)
      (Cert.Gin.dense (feat0 V c) (nbr0 V c) (wts0 V c) (bias0 V c)) := by
  have ht : t.val < 20 := lt_of_lt_of_eq t.isLt (N_0 : cfg0.N = 20)
  obtain ⟨-, -, -, -, -, -, -, e0, e1⟩ := idx_facts0 t
  show (cfg0.win 4).cut (grid0.coords t) ((dat0 V c).after 4 t) = _
  rw [after0_4]
  unfold out0_4
  rw [View.canon_unit_zero zeros2]
  simp only [View.ld_unit_zero (S := S5000x64) zeros2, View.ld_unit_zero (S := S64x64) zeros2, View.ld_unit_zero (S := S64) zeros1]
  funext j
  obtain ⟨p, q, rfl⟩ : ∃ (p : Fin 5000) (q : Fin 64), j = ix2 p q := ⟨j 0, j 1, eq_ix2 j⟩
  have hemb : ((cfg0.win 4).blk t).view.emb (ix2 p q) = ix2 (row t.val ht p) q := by
    funext a; apply Fin.ext
    match a with
    | ⟨0, _⟩ => show win0_4.index t (0 : Fin 2) * 5000 + 1 * p.val = t.val * 5000 + p.val; rw [e0]; omega
    | ⟨1, _⟩ => show win0_4.index t (1 : Fin 2) * 64 + 1 * q.val = q.val; rw [e1]; omega
  show k0_pay1 (F := Ideal) (fblk0 V c t) (nblk0 V c t) (wblk0 V c t) (bblk0 V c t) (ix2 p q)
    = Cert.Gin.dense (feat0 V c) (nbr0 V c) (wts0 V c) (bias0 V c) (((cfg0.win 4).blk t).view.emb (ix2 p q))
  rw [hemb, Cert.Gin.dense_ix2, pay0_at]
  unfold Cert.Gin.denseAt
  simp only [fblk0_at V c t ht, nblk0_at V c t ht, wblk0_at V c t, bblk0_at V c t]

/-- Every row of the output array is in some point's block: row `r` in block `r / 5000`. -/
theorem cover0 (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hN : (i 0).val / 5000 < cfg0.N := lt_of_lt_of_eq (by omega : (i 0).val / 5000 < 20) (N_0 : cfg0.N = 20).symm
  obtain ⟨-, -, -, -, -, -, -, e0, e1⟩ := idx_facts0 ⟨(i 0).val / 5000, hN⟩
  refine ⟨⟨(i 0).val / 5000, hN⟩, flush0_4 _, ?_⟩
  show i ∈ ((View.whole main_v10).slice (win0_4.rect ⟨(i 0).val / 5000, hN⟩)).set
  rw [View.set_slice_whole, Rect.mem_set_unit]
  intro a
  match a with
  | ⟨0, _⟩ =>
    show win0_4.index ⟨(i 0).val / 5000, hN⟩ (0 : Fin 2) * 5000 ≤ (i 0).val ∧ (i 0).val < win0_4.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, hN⟩ (1 : Fin 2) * 64 ≤ (i 1).val ∧ (i 1).val < win0_4.index ⟨(i 0).val / 5000, hN⟩ (1 : Fin 2) * 64 + 64
    rw [e1]; omega

/-- Region 0's output array after the region: the layer of the arrays it found. -/
theorem final0 (c : Dev nD) :
    (dat0 V c).arrAt 4 cfg0.N = Cert.Gin.dense (feat0 V c) (nbr0 V c) (wts0 V c) (bias0 V c) :=
  (dat0 V c).arrAt_eq_of_cover 4 _ (fun t _ => flushed0_eq V c t) cover0

/-! ## Region 1

The second region runs the same body over the same grid; its feature array is region 0's output, its
neighbourhood sums the second scatter-add's result, its weights and bias the second layer's. -/

/-- The arrays region 1 finds, at their literal types. -/
abbrev feat1 (c : Dev nD) : Vec Ideal S100000x64 .f32 := V c main_v10
abbrev nbr1 (c : Dev nD) : Vec Ideal S100000x64 .f32 := V c main_v20
abbrev wts1 (c : Dev nD) : Vec Ideal S64x64 .f32 := V c main_arg5
abbrev bias1 (c : Dev nD) : Vec Ideal S64 .f32 := V c main_arg6

/-- The four input blocks at a point, at their literal types. -/
abbrev fblk1 (c : Dev nD) (t : Fin cfg1.N) : Vec Ideal S5000x64 .f32 := iblk1 V c 0 t
abbrev nblk1 (c : Dev nD) (t : Fin cfg1.N) : Vec Ideal S5000x64 .f32 := iblk1 V c 1 t
abbrev wblk1 (c : Dev nD) (t : Fin cfg1.N) : Vec Ideal S64x64 .f32 := iblk1 V c 2 t
abbrev bblk1 (c : Dev nD) (t : Fin cfg1.N) : Vec Ideal S64 .f32 := iblk1 V c 3 t

/-- The printed index maps over the grid, as for region 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

theorem fblk1_at (c : Dev nD) (t : Fin cfg1.N) (ht : t.val < 20) (p : Fin 5000) (k : Fin 64) :
    fblk1 V c t (ix2 p k) = feat1 V c (ix2 (row t.val ht p) k) := by
  obtain ⟨e0, e1, -⟩ := idx_facts1 t
  show V c main_v10 (((cfg1.win 0).blk t).view.emb (ix2 p k)) = V c main_v10 (ix2 (row t.val ht p) k)
  congr 1
  funext a; apply Fin.ext
  match a with
  | ⟨0, _⟩ => show win1_0.index t (0 : Fin 2) * 5000 + 1 * p.val = t.val * 5000 + p.val; rw [e0]; omega
  | ⟨1, _⟩ => show win1_0.index t (1 : Fin 2) * 64 + 1 * k.val = k.val; rw [e1]; omega

theorem nblk1_at (c : Dev nD) (t : Fin cfg1.N) (ht : t.val < 20) (p : Fin 5000) (k : Fin 64) :
    nblk1 V c t (ix2 p k) = nbr1 V c (ix2 (row t.val ht p) k) := by
  obtain ⟨-, -, e0, e1, -⟩ := idx_facts1 t
  show V c main_v20 (((cfg1.win 1).blk t).view.emb (ix2 p k)) = V c main_v20 (ix2 (row t.val ht p) k)
  congr 1
  funext a; apply Fin.ext
  match a with
  | ⟨0, _⟩ => show win1_1.index t (0 : Fin 2) * 5000 + 1 * p.val = t.val * 5000 + p.val; rw [e0]; omega
  | ⟨1, _⟩ => show win1_1.index t (1 : Fin 2) * 64 + 1 * k.val = k.val; rw [e1]; omega

theorem wblk1_at (c : Dev nD) (t : Fin cfg1.N) (k q : Fin 64) :
    wblk1 V c t (ix2 k q) = wts1 V c (ix2 k q) := by
  obtain ⟨-, -, -, -, e0, e1, -⟩ := idx_facts1 t
  show V c main_arg5 (((cfg1.win 2).blk t).view.emb (ix2 k q)) = V c main_arg5 (ix2 k q)
  congr 1
  funext a; apply Fin.ext
  match a with
  | ⟨0, _⟩ => show win1_2.index t (0 : Fin 2) * 64 + 1 * k.val = k.val; rw [e0]; omega
  | ⟨1, _⟩ => show win1_2.index t (1 : Fin 2) * 64 + 1 * q.val = q.val; rw [e1]; omega

theorem bblk1_at (c : Dev nD) (t : Fin cfg1.N) (q : Fin 64) :
    bblk1 V c t (ix1 q) = bias1 V c (ix1 q) := by
  obtain ⟨-, -, -, -, -, -, e0, -⟩ := idx_facts1 t
  show V c main_arg6 (((cfg1.win 3).blk t).view.emb (ix1 q)) = V c main_arg6 (ix1 q)
  congr 1
  funext a; apply Fin.ext
  match a with
  | ⟨0, _⟩ => show win1_3.index t (0 : Fin 1) * 64 + 1 * q.val = q.val; rw [e0]; omega

/-- What point `t` of region 1 writes back is block `t` of the layer of the entry arrays. -/
theorem flushed1_eq (c : Dev nD) (t : Fin cfg1.N) :
    (dat1 V c).flushed 4 t = ((cfg1.win 4).blk t).view.read (Elt Ideal)
      (Cert.Gin.dense (feat1 V c) (nbr1 V c) (wts1 V c) (bias1 V c)) := by
  have ht : t.val < 20 := lt_of_lt_of_eq t.isLt (N_1 : cfg1.N = 20)
  obtain ⟨-, -, -, -, -, -, -, e0, e1⟩ := idx_facts1 t
  show (cfg1.win 4).cut (grid1.coords t) ((dat1 V c).after 4 t) = _
  rw [after1_4]
  unfold out1_4
  rw [View.canon_unit_zero zeros2]
  simp only [View.ld_unit_zero (S := S5000x64) zeros2, View.ld_unit_zero (S := S64x64) zeros2, View.ld_unit_zero (S := S64) zeros1]
  funext j
  obtain ⟨p, q, rfl⟩ : ∃ (p : Fin 5000) (q : Fin 64), j = ix2 p q := ⟨j 0, j 1, eq_ix2 j⟩
  have hemb : ((cfg1.win 4).blk t).view.emb (ix2 p q) = ix2 (row t.val ht p) q := by
    funext a; apply Fin.ext
    match a with
    | ⟨0, _⟩ => show win1_4.index t (0 : Fin 2) * 5000 + 1 * p.val = t.val * 5000 + p.val; rw [e0]; omega
    | ⟨1, _⟩ => show win1_4.index t (1 : Fin 2) * 64 + 1 * q.val = q.val; rw [e1]; omega
  show k1_pay1 (F := Ideal) (fblk1 V c t) (nblk1 V c t) (wblk1 V c t) (bblk1 V c t) (ix2 p q)
    = Cert.Gin.dense (feat1 V c) (nbr1 V c) (wts1 V c) (bias1 V c) (((cfg1.win 4).blk t).view.emb (ix2 p q))
  rw [hemb, Cert.Gin.dense_ix2, pay1_at]
  unfold Cert.Gin.denseAt
  simp only [fblk1_at V c t ht, nblk1_at V c t ht, wblk1_at V c t, bblk1_at V c t]

/-- Every row of region 1's output array is in some point's block. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : (i 0).val / 5000 < cfg1.N := lt_of_lt_of_eq (by omega : (i 0).val / 5000 < 20) (N_1 : cfg1.N = 20).symm
  obtain ⟨-, -, -, -, -, -, -, e0, e1⟩ := idx_facts1 ⟨(i 0).val / 5000, hN⟩
  refine ⟨⟨(i 0).val / 5000, hN⟩, flush1_4 _, ?_⟩
  show i ∈ ((View.whole main_v21).slice (win1_4.rect ⟨(i 0).val / 5000, hN⟩)).set
  rw [View.set_slice_whole, Rect.mem_set_unit]
  intro a
  match a with
  | ⟨0, _⟩ =>
    show win1_4.index ⟨(i 0).val / 5000, hN⟩ (0 : Fin 2) * 5000 ≤ (i 0).val ∧ (i 0).val < win1_4.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, hN⟩ (1 : Fin 2) * 64 ≤ (i 1).val ∧ (i 1).val < win1_4.index ⟨(i 0).val / 5000, hN⟩ (1 : Fin 2) * 64 + 64
    rw [e1]; omega

/-- Region 1's output array after the region: the layer of the arrays it found. -/
theorem final1 (c : Dev nD) :
    (dat1 V c).arrAt 4 cfg1.N = Cert.Gin.dense (feat1 V c) (nbr1 V c) (wts1 V c) (bias1 V c) :=
  (dat1 V c).arrAt_eq_of_cover 4 _ (fun t _ => flushed1_eq V c t) cover1

end Cert.KernelIdeal.Region

end
-- ==== Proof.KernelValue.lean ====
/-
  The kernel program's result as two applications of one layer.

  @main is a host stretch, a kernel region, a second host stretch and a second kernel region.  Each host stretch forms
  the neighbourhood sums of the current features (a row gather at the source indices, then a scatter-add at the
  destination indices: kept as ONE unopened function `nbrSum`) and writes nothing else that is read later; each region
  leaves in its output array the layer `Cert.Gin.dense` of the arrays it finds.  Reading the buffer contents at the four
  segment boundaries back to the launch memory, the result array holds

      dense (hidden) (nbrSum hidden src dst) W2 b2,   hidden = dense x (nbrSum x src dst) W1 b1.
-/
import proofs.«100566_j4587025072633_1_alg».proof.Proof.Gen.KernelIdeal.Frame
import proofs.«100566_j4587025072633_1_alg».proof.Proof.RegionArray
import Idealize.ShloMosaic.Lib.StableHlo.Run

set_option maxRecDepth 16384

noncomputable section

namespace Cert.KernelIdeal.Result

open Cert.KernelIdeal Cert.KernelIdeal.Gen Cert.KernelIdeal.Region
open Idealize.ShloMosaic Idealize.ShloMosaic.TcCoe Idealize.SL.Sem Idealize.ShloMosaic.StableHlo
open Idealize.ShloMosaic.Pipeline (Dat Cfg Window)

/-- The neighbourhood sums as the host computes them: negative source indices are wrapped once by the number of nodes,
    the rows of `h` at the source indices are gathered, and added into a zero array at the destination indices. -/
def nbrSum (h : FVec Ideal S100000x64 .f32) (src dst : IVec S1600000 32) : FVec Ideal S100000x64 .f32 :=
  Host.scatterAdd scatter_S100000x64_S1600000x1_S1600000x64_1_0_0_1 (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h (broadcastInDim S1600000x1 ![0] bcast_S1600000_S1600000x1_0
      (select (cmpi .slt src (broadcastInDim S1600000 ![] bcast_S_S1600000 (constantI S_ 32 0#32)))
        (addi src (broadcastInDim S1600000 ![] bcast_S_S1600000 (constantI S_ 32 100000#32))) src)))

/-! ## The two host stretches, from any buffer contents -/

section Stretches
variable (W : Valuation τ sig (Elt Ideal))

/-- The first stretch leaves the neighbourhood sums of the first argument in the buffer the first region reads. -/
theorem stretch0_nbr : StableHlo.after (hostOps0 (F := Ideal)) W (Proc.devRef .tc main_v9)
    = nbrSum (W (Proc.devRef .tc main_arg0)) (W (Proc.devRef .tc main_arg1)) (W (Proc.devRef .tc main_arg2)) := by
  unfold nbrSum
  after_results

/-- The first stretch writes none of the arguments. -/
theorem stretch0_arg0 : StableHlo.after (hostOps0 (F := Ideal)) W (Proc.devRef .tc main_arg0) = W (Proc.devRef .tc main_arg0) := by after_results
theorem stretch0_arg1 : StableHlo.after (hostOps0 (F := Ideal)) W (Proc.devRef .tc main_arg1) = W (Proc.devRef .tc main_arg1) := by after_results
theorem stretch0_arg2 : StableHlo.after (hostOps0 (F := Ideal)) W (Proc.devRef .tc main_arg2) = W (Proc.devRef .tc main_arg2) := by after_results
theorem stretch0_arg3 : StableHlo.after (hostOps0 (F := Ideal)) W (Proc.devRef .tc main_arg3) = W (Proc.devRef .tc main_arg3) := by after_results
theorem stretch0_arg4 : StableHlo.after (hostOps0 (F := Ideal)) W (Proc.devRef .tc main_arg4) = W (Proc.devRef .tc main_arg4) := by after_results
theorem stretch0_arg5 : StableHlo.after (hostOps0 (F := Ideal)) W (Proc.devRef .tc main_arg5) = W (Proc.devRef .tc main_arg5) := by after_results
theorem stretch0_arg6 : StableHlo.after (hostOps0 (F := Ideal)) W (Proc.devRef .tc main_arg6) = W (Proc.devRef .tc main_arg6) := by after_results

/-- The second stretch leaves the neighbourhood sums of the first region's output in the buffer the second region reads. -/
theorem stretch1_nbr : StableHlo.after (hostOps1 (F := Ideal)) W (Proc.devRef .tc main_v20)
    = nbrSum (W (Proc.devRef .tc main_v10)) (W (Proc.devRef .tc main_arg1)) (W (Proc.devRef .tc main_arg2)) := by
  unfold nbrSum
  after_results

/-- The second stretch writes neither the first region's output nor the second layer's weights and bias. -/
theorem stretch1_v10 : StableHlo.after (hostOps1 (F := Ideal)) W (Proc.devRef .tc main_v10) = W (Proc.devRef .tc main_v10) := by after_results
theorem stretch1_arg5 : StableHlo.after (hostOps1 (F := Ideal)) W (Proc.devRef .tc main_arg5) = W (Proc.devRef .tc main_arg5) := by after_results
theorem stretch1_arg6 : StableHlo.after (hostOps1 (F := Ideal)) W (Proc.devRef .tc main_arg6) = W (Proc.devRef .tc main_arg6) := by after_results

end Stretches

/-! ## The boundary contents read back to the launch memory -/

variable (m : (ℓ : Loc nD τ sig) → Buf (Elt Ideal) ℓ) (ρ : Dev nD → PrngReg)

/-- The first layer's output, of the launch memory. -/
def hidden (c : Dev nD) : FVec Ideal S100000x64 .f32 :=
  Cert.Gin.dense (m ((c : Thread nD τ).loc main_arg0)) (nbrSum (m ((c : Thread nD τ).loc main_arg0)) (m ((c : Thread nD τ).loc main_arg1)) (m ((c : Thread nD τ).loc main_arg2)))
    (m ((c : Thread nD τ).loc main_arg3)) (m ((c : Thread nD τ).loc main_arg4))

/-- The second layer's output, of the launch memory: the program's result. -/
def result (c : Dev nD) : FVec Ideal S100000x64 .f32 :=
  Cert.Gin.dense (hidden m c) (nbrSum (hidden m c) (m ((c : Thread nD τ).loc main_arg1)) (m ((c : Thread nD τ).loc main_arg2)))
    (m ((c : Thread nD τ).loc main_arg5)) (m ((c : Thread nD τ).loc main_arg6))

/-- What the first region finds: the arguments as launched and the first stretch's neighbourhood sums. -/
theorem entry0_feat (c : Dev nD) : feat0 (V1 m ρ) c = (m ((c : Thread nD τ).loc main_arg0)) := stretch0_arg0 (W0 m ρ c)
theorem entry0_wts (c : Dev nD) : wts0 (V1 m ρ) c = (m ((c : Thread nD τ).loc main_arg3)) := stretch0_arg3 (W0 m ρ c)
theorem entry0_bias (c : Dev nD) : bias0 (V1 m ρ) c = (m ((c : Thread nD τ).loc main_arg4)) := stretch0_arg4 (W0 m ρ c)
theorem entry0_nbr (c : Dev nD) : nbr0 (V1 m ρ) c = nbrSum (m ((c : Thread nD τ).loc main_arg0)) (m ((c : Thread nD τ).loc main_arg1)) (m ((c : Thread nD τ).loc main_arg2)) :=
  stretch0_nbr (W0 m ρ c)

/-- The first region's output array, at its exit, is the first layer's output. -/
theorem exit0 (c : Dev nD) : W2 m ρ c (Proc.devRef .tc main_v10) = hidden m c := by
  rw [show W2 m ρ c (Proc.devRef .tc main_v10) = (dat0 (V1 m ρ) c).arrAt 4 cfg0.N from W2_arr m ρ c 4, final0 (V1 m ρ) c,
    entry0_feat, entry0_nbr, entry0_wts, entry0_bias]
  rfl

/-- Buffers the first region does not own pass through it, and the first stretch before it wrote none of them. -/
theorem exit0_arg1 (c : Dev nD) : W2 m ρ c (Proc.devRef .tc main_arg1) = (m ((c : Thread nD τ).loc main_arg1)) :=
  (W2_of_ne m ρ c main_arg1 (by decide)).trans (stretch0_arg1 (W0 m ρ c))
theorem exit0_arg2 (c : Dev nD) : W2 m ρ c (Proc.devRef .tc main_arg2) = (m ((c : Thread nD τ).loc main_arg2)) :=
  (W2_of_ne m ρ c main_arg2 (by decide)).trans (stretch0_arg2 (W0 m ρ c))
theorem exit0_arg5 (c : Dev nD) : W2 m ρ c (Proc.devRef .tc main_arg5) = (m ((c : Thread nD τ).loc main_arg5)) :=
  (W2_of_ne m ρ c main_arg5 (by decide)).trans (stretch0_arg5 (W0 m ρ c))
theorem exit0_arg6 (c : Dev nD) : W2 m ρ c (Proc.devRef .tc main_arg6) = (m ((c : Thread nD τ).loc main_arg6)) :=
  (W2_of_ne m ρ c main_arg6 (by decide)).trans (stretch0_arg6 (W0 m ρ c))

/-- What the second region finds. -/
theorem entry1_feat (c : Dev nD) : feat1 (V3 m ρ) c = hidden m c := (stretch1_v10 (W2 m ρ c)).trans (exit0 m ρ c)
theorem entry1_wts (c : Dev nD) : wts1 (V3 m ρ) c = (m ((c : Thread nD τ).loc main_arg5)) := (stretch1_arg5 (W2 m ρ c)).trans (exit0_arg5 m ρ c)
theorem entry1_bias (c : Dev nD) : bias1 (V3 m ρ) c = (m ((c : Thread nD τ).loc main_arg6)) := (stretch1_arg6 (W2 m ρ c)).trans (exit0_arg6 m ρ c)
theorem entry1_nbr (c : Dev nD) : nbr1 (V3 m ρ) c = nbrSum (hidden m c) (m ((c : Thread nD τ).loc main_arg1)) (m ((c : Thread nD τ).loc main_arg2)) := by
  rw [← exit0 m ρ c, ← exit0_arg1 m ρ c, ← exit0_arg2 m ρ c]
  exact stretch1_nbr (W2 m ρ c)

/-- The result array at the last boundary is the second layer's output. -/
theorem result_eq (c : Dev nD) : W4 m ρ c (Proc.devRef .tc main_v21) = result m c := by
  rw [show W4 m ρ c (Proc.devRef .tc main_v21) = (dat1 (V3 m ρ) c).arrAt 4 cfg1.N from W4_arr m ρ c 4, final1 (V3 m ρ) c,
    entry1_feat, entry1_nbr, entry1_wts, entry1_bias]
  rfl

end Cert.KernelIdeal.Result

end
-- ==== Proof.RefLayer.lean ====
/-
  The reference program as two applications of one layer.

  Each layer of the reference first forms the neighbourhood sums of its input features (a row gather at the source
  indices followed by a scatter-add at the destination indices: kept here as ONE unopened function `nbrSum` of the
  features and the two index arrays), then computes, on the whole 100000 × 64 array,

      max ( (1 · h + nbrSum h) · W + b , 0 ).

  Over the extended reals the literal one is the number 1 and `1 · x = x` for every `x`, infinite or not; the host's
  matrix product read at (r, c) is the sum over `k` of the products of row `r` and column `c`; the bias is
  broadcast along the rows.  So the reference's layer is `Cert.Gin.dense`, entry by entry.
-/
import proofs.«100566_j4587025072633_1_alg».proof.Proof.Gen.ReferenceIdeal.Read
import proofs.«100566_j4587025072633_1_alg».proof.Proof.Dense
import Idealize.ShloMosaic.Lib.Pipeline.Value
import Idealize.ShloMosaic.Lib.ValueIdx
import Idealize.ShloMosaic.PureOps.Ideal.Laws
import Idealize.ShloMosaic.PureOps.IdealRules

noncomputable section

namespace Cert.ReferenceIdeal.Layer

open Cert.ReferenceIdeal Cert.ReferenceIdeal.Gen Cert.ReferenceIdeal.Read
open Idealize.ShloMosaic Idealize.ShloMosaic.TcCoe Idealize.ShloMosaic.ValueIdx Idealize.SL.Sem
open scoped BigOperators

/-- The neighbourhood sums as the host computes them: negative source indices are wrapped once by the number of nodes,
    the rows of `h` at the source indices are gathered, and added into a zero array at the destination indices. -/
def nbrSum (h : FVec Ideal S100000x64 .f32) (src dst : IVec S1600000 32) :
    FVec Ideal S100000x64 .f32 :=
  Host.scatterAdd scatter_S100000x64_S1600000x1_S1600000x64_1_0_0_1 (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h (broadcastInDim S1600000x1 ![0] bcast_S1600000_S1600000x1_0
      (select (cmpi .slt src (broadcastInDim S1600000 ![] bcast_S_S1600000 (constantI S_ 32 0#32)))
        (addi src (broadcastInDim S1600000 ![] bcast_S_S1600000 (constantI S_ 32 100000#32))) src)))

/-- One layer's dense half as the reference's operations spell it. -/
def layer (h a : FVec Ideal S100000x64 .f32) (W : FVec Ideal S64x64 .f32)
    (b : FVec Ideal S64 .f32) : FVec Ideal S100000x64 .f32 :=
  maximumf (addf (Host.dotGeneral dot_S100000x64_S64x64_S100000x64_1_0_0_1_n_n none
      (addf (mulf (broadcastInDim S100000x64 ![] bcast_S_S100000x64 (constant (F := Ideal) S_ .f32 0x3F800000#32)) h) a) W)
      (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

/-- The host's matrix product at row `r`, column `c`. -/
theorem dot_at (y : FVec Ideal S100000x64 .f32) (w : FVec Ideal S64x64 .f32)
    (r : Fin 100000) (c : Fin 64) :
    Host.dotGeneral dot_S100000x64_S64x64_S100000x64_1_0_0_1_n_n none y w (ix2 r c) = ∑ k : Fin 64, y (ix2 r k) * w (ix2 k c) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 r c) ((ValueIdx.contrEquiv1 dot_S100000x64_S64x64_S100000x64_1_0_0_1_n_n 64 rfl rfl).symm k) = ix2 r k := funext fun a => Fin.ext (by
    match a with
    | ⟨0, _⟩ => exact lhs_main_v13_0 _ _
    | ⟨1, _⟩ => exact (lhs_main_v13_1 _ _).trans hk)
  have er : dot_S100000x64_S64x64_S100000x64_1_0_0_1_n_n.rhsIdx (ix2 r c) ((ValueIdx.contrEquiv1 dot_S100000x64_S64x64_S100000x64_1_0_0_1_n_n 64 rfl rfl).symm k) = ix2 k c := funext fun a => Fin.ext (by
    match a with
    | ⟨0, _⟩ => exact (rhs_main_v13_0 _ _).trans hk
    | ⟨1, _⟩ => exact rhs_main_v13_1 _ _)
  rw [el, er]

/-- A scalar broadcast to the node array reads the scalar. -/
theorem splat_at (x : FVec Ideal S_ .f32) (i : S100000x64.Idx) :
    broadcastInDim S100000x64 ![] bcast_S_S100000x64 x i = x ix0 :=
  broadcastInDim_apply _ bcast_S_S100000x64 x i ix0 (fun a => a.elim0)

/-- The bias row broadcast along the rows reads the bias at the column. -/
theorem bias_at (b : FVec Ideal S64 .f32) (r : Fin 100000) (c : Fin 64) :
    broadcastInDim S100000x64 ![0, 1] bcast_S1x64_S100000x64_0_1 (broadcastInDim S1x64 ![1] bcast_S64_S1x64_1 b) (ix2 r c) = b (ix1 c) := by
  rw [broadcastInDim_apply _ bcast_S1x64_S100000x64_0_1 _ (ix2 r c) (ix2 (0 : Fin 1) c) (fun a => match a with
    | ⟨0, _⟩ => by show 0 = if (1 : Nat) = 1 then 0 else r.val; rw [if_pos rfl]
    | ⟨1, _⟩ => by show c.val = if (64 : Nat) = 1 then 0 else c.val; rw [if_neg (by decide)])]
  exact broadcastInDim_apply _ bcast_S64_S1x64_1 b (ix2 (0 : Fin 1) c) (ix1 c) (fun a => match a with
    | ⟨0, _⟩ => by show c.val = if (64 : Nat) = 1 then 0 else c.val; rw [if_neg (by decide)])

/-- The features multiplied by the literal one are the features: the word is the number 1, and `1 · x = x` on every
    extended real. -/
theorem one_mul_feat (h : FVec Ideal S100000x64 .f32) :
    mulf (broadcastInDim S100000x64 ![] bcast_S_S100000x64 (constant (F := Ideal) S_ .f32 0x3F800000#32)) h = h := by
  have one_word : Ideal.ofBits .f32 0x3F800000#32 = 1 := IdealRules.sign_bit.ideal_onePat .f32
  funext i
  rw [mulf_apply, splat_at, constant_apply, one_word, one_mul]

/-- The reference's layer is the whole-array layer. -/
theorem layer_eq (h a : FVec Ideal S100000x64 .f32) (W : FVec Ideal S64x64 .f32)
    (b : FVec Ideal S64 .f32) : layer h a W b = Cert.Gin.dense h a W b := by
  funext i
  obtain ⟨r, c, rfl⟩ : ∃ (r : Fin 100000) (c : Fin 64), i = ix2 r c := ⟨i 0, i 1, eq_ix2 i⟩
  rw [Cert.Gin.dense_ix2]
  unfold layer Cert.Gin.denseAt
  rw [one_mul_feat, maximumf_apply, addf_apply, dot_at, bias_at, splat_at, constant_apply, Ideal.ofBits_zero_f32]
  simp only [addf_apply]

end Cert.ReferenceIdeal.Layer

end
-- ==== Proof.RefRun.lean ====
/-
  The reference's run, with its result named: the composed term its run ends with is, read by layers,
  `layer (layer x …) …` over the unopened neighbourhood sums, and each reference layer is the whole-array layer
  `Cert.Gin.dense`.
-/
import proofs.«100566_j4587025072633_1_alg».proof.Proof.Gen.ReferenceIdeal.Run
import proofs.«100566_j4587025072633_1_alg».proof.Proof.RefLayer

noncomputable section

namespace Cert.ReferenceIdeal.Layer

open Cert.ReferenceIdeal Cert.ReferenceIdeal.Gen
open Idealize.ShloMosaic Idealize.ShloMosaic.TcCoe Idealize.SL.Sem

variable (m : (ℓ : Loc nD τ sig) → Buf (Elt Ideal) ℓ)

/-- The first layer's output, of the launch memory. -/
def hidden (c : Dev nD) : FVec Ideal S100000x64 .f32 :=
  Cert.Gin.dense (m ((c.tc : Thread nD τ).loc main_arg0)) (nbrSum (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg4))

/-- The second layer's output, of the launch memory: the program's result. -/
def result (c : Dev nD) : FVec Ideal S100000x64 .f32 :=
  Cert.Gin.dense (hidden m c) (nbrSum (hidden m c) (m ((c.tc : Thread nD τ).loc main_arg1)) (m ((c.tc : Thread nD τ).loc main_arg2)))
    (m ((c.tc : Thread nD τ).loc main_arg5)) (m ((c.tc : Thread nD τ).loc main_arg6))

/-- Every weakly fair execution of the reference terminates with the result array at `result` and the arguments
    unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v35) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2⟩) (Cert.ReferenceIdeal.Value.run (F := Ideal) m ρ)
  show layer (layer (m ((c.tc : Thread nD τ).loc main_arg0)) (nbrSum (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)))
      (nbrSum (layer (m ((c.tc : Thread nD τ).loc main_arg0)) (nbrSum (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) (m ((c.tc : Thread nD τ).loc main_arg1)) (m ((c.tc : Thread nD τ).loc main_arg2)))
      (m ((c.tc : Thread nD τ).loc main_arg5)) (m ((c.tc : Thread nD τ).loc main_arg6)) = _
  rw [layer_eq, layer_eq]
  rfl

end Cert.ReferenceIdeal.Layer

end
-- ==== Proof.lean ====
/-
  Two graph-isomorphism layers, the kernel program against its jnp reference, over the extended reals.

  Both programs compute, twice, h ↦ max((h + N(h)) · W + b, 0), where N(h) — the neighbourhood sums: the rows of h
  gathered at the source indices and added up at the destination indices — is formed by the SAME host operations in
  both programs and is never opened here.  The reference multiplies h by the literal 1 first (the number one, and
  1 · x = x on every extended real) and takes the matrix product of the whole 100000 × 64 array; the kernel narrows the
  product's operands to bf16 (the identity on extended reals), accumulates into zero, and does 5000 rows per grid point.
  Entry (r, c) of a layer depends on row r of h and N(h) only, so the twenty row blocks of each kernel region tile the
  whole-array layer.  The sums over the contracted axis are the same finite sums on both sides: no law that fails at
  an infinity is used, and the finiteness of the inputs is not needed.

  The three frames are the generated ones (the reference's frame is its generated run with the result dropped); the
  idealization rewrote nothing, so it preserves trivially; the value claim pairs the kernel's run, its result read back
  through the segment boundaries, with the reference's run, both ending at the same function of the arguments.
-/
import proofs.«100566_j4587025072633_1_alg».proof.Defs
import proofs.«100566_j4587025072633_1_alg».proof.Proof.Gen.Kernel
import proofs.«100566_j4587025072633_1_alg».proof.Proof.Gen.Kernel.Skeleton
import proofs.«100566_j4587025072633_1_alg».proof.Proof.Gen.Kernel.Launch
import proofs.«100566_j4587025072633_1_alg».proof.Proof.Gen.Kernel.Points
import proofs.«100566_j4587025072633_1_alg».proof.Proof.Gen.Kernel.Frame
import proofs.«100566_j4587025072633_1_alg».proof.Proof.Gen.KernelIdeal
import proofs.«100566_j4587025072633_1_alg».proof.Proof.Gen.KernelIdeal.Skeleton
import proofs.«100566_j4587025072633_1_alg».proof.Proof.Gen.KernelIdeal.Launch
import proofs.«100566_j4587025072633_1_alg».proof.Proof.Gen.KernelIdeal.Points
import proofs.«100566_j4587025072633_1_alg».proof.Proof.Gen.KernelIdeal.Frame
import proofs.«100566_j4587025072633_1_alg».proof.Proof.Gen.ReferenceIdeal
import proofs.«100566_j4587025072633_1_alg».proof.Proof.Gen.ReferenceIdeal.Run
import proofs.«100566_j4587025072633_1_alg».proof.Proof.Gen.ReferenceIdeal.Read
import proofs.«100566_j4587025072633_1_alg».proof.Proof.Gen.Pre_finite_inputs
import proofs.«100566_j4587025072633_1_alg».proof.Proof.KernelResultRun
import proofs.«100566_j4587025072633_1_alg».proof.Proof.KernelValue
import proofs.«100566_j4587025072633_1_alg».proof.Proof.RefRun
import Idealize.ShloMosaic.Adequacy
import Idealize.ShloMosaic.Init

noncomputable section

namespace Cert.Proof

open Idealize.ShloMosaic Idealize.ShloMosaic.TcCoe Idealize.SL.Sem

/-- The two programs form the neighbourhood sums by the same operations: their gather and scatter records have the same
    fields. -/
theorem nbrSum_eq (h : FVec Ideal Cert.KernelIdeal.S100000x64 .f32) (src dst : IVec Cert.KernelIdeal.S1600000 32) :
    Cert.ReferenceIdeal.Layer.nbrSum h src dst = Cert.KernelIdeal.Result.nbrSum h src dst := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the second layer's output of the arguments, which agree. -/
theorem algebraic : Cert.algebraic_KernelIdeal_ReferenceIdeal := by
  intro m ρ m' ρ' _ hagree
  refine ⟨fun c => Cert.KernelIdeal.Result.result m c, ?_, ?_⟩
  · exact (θ_run Cert.KernelIdeal.defs _ _).mono
      (fun r h c => ⟨(h c).1.trans (Cert.KernelIdeal.Result.result_eq m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.Layer.run m' ρ')
    obtain ⟨h0, h1, h2, h3, h4, h5, h6⟩ := hagree c
    unfold Cert.ReferenceIdeal.Layer.result Cert.ReferenceIdeal.Layer.hidden
      Cert.KernelIdeal.Result.result Cert.KernelIdeal.Result.hidden
    rw [h0, h1, h2, h3, h4, h5, h6]
    simp only [nbrSum_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
